-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 91
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x32, .f32⟩
  | .hbm, ⟨80, _⟩ => ⟨S1700000x32, .f32⟩
  | .hbm, ⟨81, _⟩ => ⟨S_, .f32⟩
  | .hbm, ⟨82, _⟩ => ⟨S100000x32, .f32⟩
  | .hbm, ⟨83, _⟩ => ⟨S1700000x1, .i32⟩
  | .hbm, ⟨84, _⟩ => ⟨S100000x32, .f32⟩
  | .hbm, ⟨85, _⟩ => ⟨S1x32, .f32⟩
  | .hbm, ⟨86, _⟩ => ⟨S100000x32, .f32⟩
  | .hbm, ⟨87, _⟩ => ⟨S100000x32, .f32⟩
  | .hbm, ⟨88, _⟩ => ⟨S_, .f32⟩
  | .hbm, ⟨89, _⟩ => ⟨S100000x32, .f32⟩
  | .hbm, ⟨90, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call2_cst : Ref sig .tc := ⟨.hbm, 88, rfl⟩
abbrev main_call2_v0 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | .hbm, ⟨122, _⟩ => ⟨S_, .f32⟩
  | .hbm, ⟨123, _⟩ => ⟨S100000x32, .f32⟩
  | .hbm, ⟨124, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_v88 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Layers.lean ====
/-
  One GCN layer's aggregation, as whole-array functions.

  The graph has 1 600 000 given edges and one self loop per node: the edge list read below is the given sources
  (row 0 of the edge array) resp. targets (row 1) followed by 0, 1, …, 99 999.  With
    deg[v]  = number of listed edges into v            (a scatter-add of ones),
    dinv[v] = deg[v]^(-1/2) where deg[v] > 0, else 0,
    norm[e] = dinv[src e] · dinv[dst e],
  a layer maps node features h (one row per node) to
    relu ( (Σ_{e : dst e = v} h[src e] · norm[e])_v  +  b ).
  Both programs of this certificate apply exactly these host operations; they differ only in how the feature
  rows h = x · W are produced (a blocked MXU product against one dot_general), so the operations are named here
  once and never opened: the equivalence is a congruence in h.
-/
import proofs.«165838_j80934363726496_1_alg».proof.Proof.Gen.KernelIdeal
import Idealize.ShloMosaic.PureOps.Ideal

noncomputable section

namespace Cert.GCN

open Idealize.ShloMosaic Cert.KernelIdeal Cert.KernelIdeal.Facts₀

variable {F : FTy → Type} [FloatOps F]

/-- The edge sources: row 0 of the edge array, then one self loop per node. -/
def srcOf (ei : IVec S2x1600000 32) : IVec S1700000 32 :=
  concatenate S1700000 0 [⟨S1600000, (shapeCast S1600000 (extractStridedSlice S1x1600000 ![0, 0] ei slices_S2x1600000_S1x1600000_0_0) shapeCasts_S1x1600000_S1600000)⟩, ⟨S100000, (iotaInDim S100000 32 0)⟩] concatenates_S1600000_S100000_S1700000_d0

/-- The edge targets: row 1 of the edge array, then one self loop per node. -/
def dstOf (ei : IVec S2x1600000 32) : IVec S1700000 32 :=
  concatenate S1700000 0 [⟨S1600000, (shapeCast S1600000 (extractStridedSlice S1x1600000 ![1, 0] ei slices_S2x1600000_S1x1600000_1_0) shapeCasts_S1x1600000_S1600000)⟩, ⟨S100000, (iotaInDim S100000 32 0)⟩] concatenates_S1600000_S100000_S1700000_d0

/-- A node list as gather indices: a negative entry is taken from the end (python indexing), the list made a column. -/
def wrapIdx (s : IVec S1700000 32) : IVec S1700000x1 32 :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- In-degrees (self loop included), as floats: ones scattered onto the targets. -/
def degOf (dst : IVec S1700000 32) : FVec F S100000 .f32 :=
  Host.scatterAdd scatter_S100000_S1700000x1_S1700000_n_0_0_1 (broadcastInDim S100000 ![] bcast_S_S100000 (constant (F := F) S_ .f32 0x00000000#32)) (broadcastInDim S1700000x1 ![0] bcast_S1700000_S1700000x1_0 dst) (broadcastInDim S1700000 ![] bcast_S_S1700000 (constant (F := F) S_ .f32 0x3F800000#32))

/-- deg^(-1/2) where the degree is positive, 0 elsewhere. -/
def dinvOf (dst : IVec S1700000 32) : FVec F S100000 .f32 :=
  select (cmpf .ogt (degOf (F := F) dst) (broadcastInDim S100000 ![] bcast_S_S100000 (constant (F := F) S_ .f32 0x00000000#32))) (Host.rsqrt (degOf (F := F) dst)) (broadcastInDim S100000 ![] bcast_S_S100000 (id (constant (F := F) S_ .f32 0x00000000#32)))

/-- The symmetric normalisation per edge, dinv[src] · dinv[dst], as a column. -/
def normOf (src dst : IVec S1700000 32) : FVec F S1700000x1 .f32 :=
  broadcastInDim S1700000x1 ![0] bcast_S1700000_S1700000x1_0 (mulf (Host.gather gather_S100000_S1700000x1_S1700000_n_0_n_n_0_1_1 (dinvOf (F := F) dst) (wrapIdx src)) (Host.gather gather_S100000_S1700000x1_S1700000_n_0_n_n_0_1_1 (dinvOf (F := F) dst) (wrapIdx dst)))

/-- A layer's aggregation on 64 features: gather the source rows, scale by the edge norm, add into the target rows,
    add the bias, relu. -/
def aggr64 (h : FVec F S100000x64 .f32) (nb : FVec F S1700000x1 .f32) (src dst : IVec S1700000 32) (b : FVec F S64 .f32) : FVec F S100000x64 .f32 :=
  maximumf (addf (Host.scatterAdd scatter_S100000x64_S1700000x1_S1700000x64_1_0_0_1 (broadcastInDim S100000x64 ![] bcast_S_S100000x64 (constant (F := F) S_ .f32 0x00000000#32)) (broadcastInDim S1700000x1 ![0] bcast_S1700000_S1700000x1_0 dst) (mulf (Host.gather gather_S100000x64_S1700000x1_S1700000x64_1_0_n_n_0_1_164 h (wrapIdx src)) (broadcastInDim S1700000x64 ![0, 1] bcast_S1700000x1_S1700000x64_0_1 nb))) (broadcastInDim S100000x64 ![0, 1] bcast_S1x64_S100000x64_0_1 (broadcastInDim S1x64 ![1] bcast_S64_S1x64_1 b))) (broadcastInDim S100000x64 ![] bcast_S_S100000x64 (constant (F := F) S_ .f32 0x00000000#32))

/-- The same on 32 features. -/
def aggr32 (h : FVec F S100000x32 .f32) (nb : FVec F S1700000x1 .f32) (src dst : IVec S1700000 32) (b : FVec F S32 .f32) : FVec F S100000x32 .f32 :=
  maximumf (addf (Host.scatterAdd scatter_S100000x32_S1700000x1_S1700000x32_1_0_0_1 (broadcastInDim S100000x32 ![] bcast_S_S100000x32 (constant (F := F) S_ .f32 0x00000000#32)) (broadcastInDim S1700000x1 ![0] bcast_S1700000_S1700000x1_0 dst) (mulf (Host.gather gather_S100000x32_S1700000x1_S1700000x32_1_0_n_n_0_1_132 h (wrapIdx src)) (broadcastInDim S1700000x32 ![0, 1] bcast_S1700000x1_S1700000x32_0_1 nb))) (broadcastInDim S100000x32 ![0, 1] bcast_S1x32_S100000x32_0_1 (broadcastInDim S1x32 ![1] bcast_S32_S1x32_1 b))) (broadcastInDim S100000x32 ![] bcast_S_S100000x32 (constant (F := F) S_ .f32 0x00000000#32))

end Cert.GCN

end
-- ==== Proof.HostStretches.lean ====
/-
  The host operations of the kernel's program, stretch by stretch, read as the layer functions.

  Each statement is over an ARBITRARY buffer valuation `Wv` (what the core's buffers hold when the stretch is
  entered): a stretch's results are its operations applied to what `Wv` holds at the buffers the stretch reads,
  and a buffer no operation of the stretch writes keeps what `Wv` holds there.
  Stretch 0 (before the first dense product) computes the edge lists and the edge normalisation from the edge
  array alone; stretch 1 (between the products) is the 64-feature aggregation of the first product's rows;
  stretch 2 (after the second product) the 32-feature aggregation.
-/
import proofs.«165838_j80934363726496_1_alg».proof.Proof.Gen.KernelIdeal.Launch
import proofs.«165838_j80934363726496_1_alg».proof.Proof.Layers
import Idealize.ShloMosaic.Lib.StableHlo.Run

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen Cert.GCN

variable {F : FTy → Type} [FloatOps F]
variable (Wv : Valuation τ sig (Elt F))

/-! ## Stretch 2: after the second product -/

set_option maxHeartbeats 4000000 in
/-- The program's result is the 32-feature aggregation of the second product's rows. -/
theorem tail_out : StableHlo.after hostOps2_1 (StableHlo.after hostOps2 Wv) (Proc.devRef .tc main_v64)
    = aggr32 (F := F) (Wv (Proc.devRef .tc main_v48)) (Wv (Proc.devRef .tc main_v30)) (Wv (Proc.devRef .tc main_v3))
        (Wv (Proc.devRef .tc main_v6)) (Wv (Proc.devRef .tc main_arg5)) := by
  dsimp only [hostOps2, hostOps2_1]
  after_results_simp
  rfl

/-! ## Stretch 1: between the products -/

set_option maxHeartbeats 4000000 in
/-- The second product's left operand is the 64-feature aggregation of the first product's rows. -/
theorem mid_h1 : StableHlo.after hostOps1_1 (StableHlo.after hostOps1 Wv) (Proc.devRef .tc main_v47)
    = aggr64 (F := F) (Wv (Proc.devRef .tc main_v31)) (Wv (Proc.devRef .tc main_v30)) (Wv (Proc.devRef .tc main_v3))
        (Wv (Proc.devRef .tc main_v6)) (Wv (Proc.devRef .tc main_arg3)) := by
  dsimp only [hostOps1, hostOps1_1]
  after_results_simp
  rfl

set_option maxHeartbeats 4000000 in
/-- The stretch writes neither the edge lists, nor the edge normalisation, nor an argument. -/
theorem mid_keep : StableHlo.after hostOps1_1 (StableHlo.after hostOps1 Wv) (Proc.devRef .tc main_v30) = Wv (Proc.devRef .tc main_v30)
    ∧ StableHlo.after hostOps1_1 (StableHlo.after hostOps1 Wv) (Proc.devRef .tc main_v3) = Wv (Proc.devRef .tc main_v3)
    ∧ StableHlo.after hostOps1_1 (StableHlo.after hostOps1 Wv) (Proc.devRef .tc main_v6) = Wv (Proc.devRef .tc main_v6)
    ∧ StableHlo.after hostOps1_1 (StableHlo.after hostOps1 Wv) (Proc.devRef .tc main_arg4) = Wv (Proc.devRef .tc main_arg4)
    ∧ StableHlo.after hostOps1_1 (StableHlo.after hostOps1 Wv) (Proc.devRef .tc main_arg5) = Wv (Proc.devRef .tc main_arg5) := by
  dsimp only [hostOps1, hostOps1_1]
  refine ⟨?_, ?_, ?_, ?_, ?_⟩ <;> after_results_simp

/-! ## Stretch 0: before the first product -/

set_option maxHeartbeats 16000000 in
/-- The edge sources. -/
theorem pre_src : StableHlo.after hostOps0_2 (StableHlo.after hostOps0_1 (StableHlo.after hostOps0 Wv)) (Proc.devRef .tc main_v3)
    = srcOf (Wv (Proc.devRef .tc main_arg1)) := by
  dsimp only [hostOps0, hostOps0_1, hostOps0_2]
  after_results
  rfl

set_option maxHeartbeats 16000000 in
/-- The edge targets. -/
theorem pre_dst : StableHlo.after hostOps0_2 (StableHlo.after hostOps0_1 (StableHlo.after hostOps0 Wv)) (Proc.devRef .tc main_v6)
    = dstOf (Wv (Proc.devRef .tc main_arg1)) := by
  dsimp only [hostOps0, hostOps0_1, hostOps0_2]
  after_results
  rfl

set_option maxHeartbeats 64000000 in
/-- The edge normalisation, as a column. -/
theorem pre_norm : StableHlo.after hostOps0_2 (StableHlo.after hostOps0_1 (StableHlo.after hostOps0 Wv)) (Proc.devRef .tc main_v30)
    = normOf (F := F) (srcOf (Wv (Proc.devRef .tc main_arg1))) (dstOf (Wv (Proc.devRef .tc main_arg1))) := by
  dsimp only [hostOps0, hostOps0_1, hostOps0_2]
  after_results
  rfl

set_option maxHeartbeats 16000000 in
/-- The stretch writes no argument. -/
theorem pre_keep : StableHlo.after hostOps0_2 (StableHlo.after hostOps0_1 (StableHlo.after hostOps0 Wv)) (Proc.devRef .tc main_arg0) = Wv (Proc.devRef .tc main_arg0)
    ∧ StableHlo.after hostOps0_2 (StableHlo.after hostOps0_1 (StableHlo.after hostOps0 Wv)) (Proc.devRef .tc main_arg2) = Wv (Proc.devRef .tc main_arg2)
    ∧ StableHlo.after hostOps0_2 (StableHlo.after hostOps0_1 (StableHlo.after hostOps0 Wv)) (Proc.devRef .tc main_arg3) = Wv (Proc.devRef .tc main_arg3)
    ∧ StableHlo.after hostOps0_2 (StableHlo.after hostOps0_1 (StableHlo.after hostOps0 Wv)) (Proc.devRef .tc main_arg4) = Wv (Proc.devRef .tc main_arg4)
    ∧ StableHlo.after hostOps0_2 (StableHlo.after hostOps0_1 (StableHlo.after hostOps0 Wv)) (Proc.devRef .tc main_arg5) = Wv (Proc.devRef .tc main_arg5) := by
  dsimp only [hostOps0, hostOps0_1, hostOps0_2]
  refine ⟨?_, ?_, ?_, ?_, ?_⟩ <;> after_results_simp

end Cert.KernelIdeal.HostSide

end
-- ==== Proof.Net.lean ====
/-
  The two dense products as plain sums over the contracted axis, and the whole two-layer network as ONE function
  of the six arguments: what both programs are shown to compute.

  Entry (r, q) of x · W is Σ_k x[r, k] · W[k, q] over the extended reals (no rounding, no order of summation).
  The operand indices are spelt by coordinates: `rowK i k` is (row of i, k), `colK i k` is (k, column of i).
-/
import proofs.«165838_j80934363726496_1_alg».proof.Proof.Layers

noncomputable section

namespace Cert.GCN

open Idealize.ShloMosaic Cert.KernelIdeal

/-- Of x : 100000 × 128, the entry in the row of `i` and column `k`. -/
abbrev row128 (i : S100000x64.Idx) (k : Fin 128) : S100000x128.Idx := fun a => match a with
  | ⟨0, _⟩ => ⟨(i 0).val, (i 0).isLt⟩
  | ⟨1, _⟩ => ⟨k.val, k.isLt⟩
/-- Of W1 : 128 × 64, the entry in row `k` and the column of `i`. -/
abbrev col128 (i : S100000x64.Idx) (k : Fin 128) : S128x64.Idx := fun a => match a with
  | ⟨0, _⟩ => ⟨k.val, k.isLt⟩
  | ⟨1, _⟩ => ⟨(i 1).val, (i 1).isLt⟩
/-- Of h : 100000 × 64, the entry in the row of `i` and column `k`. -/
abbrev row64 (i : S100000x32.Idx) (k : Fin 64) : S100000x64.Idx := fun a => match a with
  | ⟨0, _⟩ => ⟨(i 0).val, (i 0).isLt⟩
  | ⟨1, _⟩ => ⟨k.val, k.isLt⟩
/-- Of W2 : 64 × 32, the entry in row `k` and the column of `i`. -/
abbrev col64 (i : S100000x32.Idx) (k : Fin 64) : S64x32.Idx := fun a => match a with
  | ⟨0, _⟩ => ⟨k.val, k.isLt⟩
  | ⟨1, _⟩ => ⟨(i 1).val, (i 1).isLt⟩

/-- The first dense product x · W1. -/
def dense1 (x : FVec Ideal S100000x128 .f32) (w : FVec Ideal S128x64 .f32) : FVec Ideal S100000x64 .f32 :=
  fun i => ∑ k : Fin 128, x (row128 i k) * w (col128 i k)

/-- The second dense product h · W2. -/
def dense2 (h : FVec Ideal S100000x64 .f32) (w : FVec Ideal S64x32 .f32) : FVec Ideal S100000x32 .f32 :=
  fun i => ∑ k : Fin 64, h (row64 i k) * w (col64 i k)

/-- The two-layer network over given dense products `mm1`, `mm2`: product, aggregation on 64 features, product,
    aggregation on 32 features; the edge lists and the edge normalisation come from the edge array alone.  (Stated
    for any float family, so that a program's composed host term can be compared with it without opening an
    operation.) -/
def netOf {F : FTy → Type} [FloatOps F]
    (mm1 : FVec F S100000x128 .f32 → FVec F S128x64 .f32 → FVec F S100000x64 .f32)
    (mm2 : FVec F S100000x64 .f32 → FVec F S64x32 .f32 → FVec F S100000x32 .f32)
    (x : FVec F S100000x128 .f32) (ei : IVec S2x1600000 32) (w1 : FVec F S128x64 .f32) (b1 : FVec F S64 .f32)
    (w2 : FVec F S64x32 .f32) (b2 : FVec F S32 .f32) : FVec F S100000x32 .f32 :=
  aggr32 (mm2 (aggr64 (mm1 x w1) (normOf (srcOf ei) (dstOf ei)) (srcOf ei) (dstOf ei) b1) w2)
    (normOf (srcOf ei) (dstOf ei)) (srcOf ei) (dstOf ei) b2

/-- The network both programs compute over the extended reals: the dense products are the plain sums. -/
def net (x : FVec Ideal S100000x128 .f32) (ei : IVec S2x1600000 32) (w1 : FVec Ideal S128x64 .f32) (b1 : FVec Ideal S64 .f32)
    (w2 : FVec Ideal S64x32 .f32) (b2 : FVec Ideal S32 .f32) : FVec Ideal S100000x32 .f32 :=
  netOf dense1 dense2 x ei w1 b1 w2 b2

end Cert.GCN

end
-- ==== Proof.Matmul0.lean ====
/-
  The first pallas_call computes x · W1, block by block.

  The grid has 10 points; point t stages rows 10000·t … 10000·t + 9999 of x (all 128 columns), the whole of W1,
  and writes rows 10000·t … 10000·t + 9999 of the result (all 64 columns).  The body rounds both operands to bf16
  (the identity on the extended reals) and multiplies them on the MXU into a zero accumulator, so local entry (p, q)
  of the block is Σ_k xblock[p, k] · W1[k, q]; read through the block's position this is entry (10000·t + p, q) of
  `dense1 x W1`.  The ten blocks tile the array, so the array ends holding `dense1 x W1` — whatever the buffers
  held when the region was entered (the statement is over arbitrary entry contents `V`).
-/
import proofs.«165838_j80934363726496_1_alg».proof.Proof.Gen.KernelIdeal.Frame
import proofs.«165838_j80934363726496_1_alg».proof.Proof.Net
import Idealize.ShloMosaic.Lib.Pipeline.Value
import Idealize.ShloMosaic.Lib.ValueIdx
import Idealize.ShloMosaic.PureOps.Ideal.Laws

set_option maxRecDepth 16384

noncomputable section

namespace Cert.KernelIdeal.Product1

open Idealize.ShloMosaic Idealize.ShloMosaic.TcCoe Idealize.SL.Sem
open Idealize.ShloMosaic.Pipeline (Dat Cfg Window)
open Cert.KernelIdeal Cert.KernelIdeal.Gen Cert.GCN

/-- The MXU product's dimension numbers: [10000, 128] × [128, 64], axis 1 of the left against axis 0 of the right. -/
abbrev dK := dot_S10000x128_S128x64_S10000x64_1_0_0_1_n_n

/-! ## The operand indices of the block product -/

theorem lhs_0 (j : S10000x64.Idx) (q : dK.contr.Idx) : (dK.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (j : S10000x64.Idx) (q : dK.contr.Idx) : (dK.lhsIdx j q 1).val = (q ⟨0, by decide⟩).val :=
  dot_S10000x128_S128x64_S10000x64_1_0_0_1_n_n.lhsIdx_val_of_single rfl j q
theorem rhs_0 (j : S10000x64.Idx) (q : dK.contr.Idx) : (dK.rhsIdx j q 0).val = (q ⟨0, by decide⟩).val :=
  dot_S10000x128_S128x64_S10000x64_1_0_0_1_n_n.rhsIdx_val_of_single rfl j q
theorem rhs_1 (j : S10000x64.Idx) (q : dK.contr.Idx) : (dK.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- In a block of x: local row of `j`, column `k`. -/
abbrev brow (j : S10000x64.Idx) (k : Fin 128) : S10000x128.Idx := fun a => match a with
  | ⟨0, _⟩ => ⟨(j 0).val, (j 0).isLt⟩
  | ⟨1, _⟩ => ⟨k.val, k.isLt⟩
/-- In W1: row `k`, the column of `j`. -/
abbrev bcol (j : S10000x64.Idx) (k : Fin 128) : S128x64.Idx := fun a => match a with
  | ⟨0, _⟩ => ⟨k.val, k.isLt⟩
  | ⟨1, _⟩ => ⟨(j 1).val, (j 1).isLt⟩

/-- The body's stored value at a local index: the sum over the 128 contracted positions of the products of the
    staged operands (the rounding to bf16 is the identity at the ideal instance; the accumulator is zero). -/
theorem pay_apply (x0 : FVec Ideal S10000x128 .f32) (x1 : FVec Ideal S128x64 .f32) (j : S10000x64.Idx) :
    k0_pay1 (F := Ideal) x0 x1 j = ∑ k : Fin 128, x0 (brow j k) * x1 (bcol j k) := by
  unfold k0_pay1
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = brow j k := funext fun a => Fin.ext (by
    match a with
    | ⟨0, _⟩ => exact lhs_0 _ _
    | ⟨1, _⟩ => exact (lhs_1 _ _).trans hk)
  have er : dot_S10000x128_S128x64_S10000x64_1_0_0_1_n_n.rhsIdx j ((ValueIdx.contrEquiv1 dot_S10000x128_S128x64_S10000x64_1_0_0_1_n_n 128 rfl rfl).symm k) = bcol j k := funext fun a => Fin.ext (by
    match a with
    | ⟨0, _⟩ => exact (rhs_0 _ _).trans hk
    | ⟨1, _⟩ => exact rhs_1 _ _)
  show x0 (dot_S10000x128_S128x64_S10000x64_1_0_0_1_n_n.lhsIdx j _) * x1 (dot_S10000x128_S128x64_S10000x64_1_0_0_1_n_n.rhsIdx j _) = _
  rw [el, er]

/-! ## The blocks' positions, decided over the grid -/

theorem hz : (![0, 0] : Fin 2 → Nat) = fun _ => 0 := funext fun a => by fin_cases a <;> rfl

/-- The x block and the result block of a point sit at the same block row; every other block coordinate is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every block row 0 … 9 is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- The left operand's array as the region finds it, at its literal type. -/
abbrev larr (c : Dev nD) : FVec Ideal S100000x128 .f32 := V c main_arg0
/-- The right operand's array as the region finds it, at its literal type. -/
abbrev rarr (c : Dev nD) : FVec Ideal S128x64 .f32 := V c main_arg2

/-- What point `t` writes back is block `t` of `dense1 x W1`, x and W1 as the region finds them. -/
theorem flushed_eq (c : Dev nD) (t : Fin cfg0.N) :
    (dat0 V c).flushed 2 t = ((cfg0.win 2).blk t).view.read (Elt Ideal) (dense1 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext j
  show k0_pay1 (F := Ideal) (iblk0 V c 0 t) (iblk0 V c 1 t) j = dense1 (V c main_arg0) (V c main_arg2) (((cfg0.win 2).blk t).view.emb j)
  refine (pay_apply (iblk0 V c 0 t) (iblk0 V c 1 t) j).trans ?_
  unfold dense1
  refine Finset.sum_congr rfl fun k _ => ?_
  show larr V c (((cfg0.win 0).blk t).view.emb (brow j k)) * rarr V c (((cfg0.win 1).blk t).view.emb (bcol j k))
    = larr V c (row128 (((cfg0.win 2).blk t).view.emb j) k) * rarr V c (col128 (((cfg0.win 2).blk t).view.emb j) k)
  have h0 : ((cfg0.win 0).blk t).view.emb (brow j k) = row128 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (bcol j k) = col128 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

/-- An index of the result array is in point `t`'s block iff each coordinate is in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Every index of the result array is in some point's block: row r lies in block row r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the region: `dense1 x W1` of the entry contents. -/
theorem out_eq (c : Dev nD) : (dat0 V c).arrAt 2 cfg0.N = dense1 (V c main_arg0) (V c main_arg2) :=
  (dat0 V c).arrAt_eq_of_cover 2 (dense1 (V c main_arg0) (V c main_arg2)) (fun t _ => flushed_eq V c t) cover

end Cert.KernelIdeal.Product1

end
-- ==== Proof.Matmul1.lean ====
/-
  The second pallas_call computes h · W2, block by block, h the first layer's output.

  The grid has 10 points; point t stages rows 10000·t … 10000·t + 9999 of h (all 64 columns), the whole of W2,
  and writes rows 10000·t … 10000·t + 9999 of the result (all 32 columns).  The body rounds both operands to bf16
  (the identity on the extended reals; the block is first cast to its own shape, also the identity) and multiplies
  them on the MXU into a zero accumulator, so local entry (p, q) of the block is Σ_k hblock[p, k] · W2[k, q]; read
  through the block's position this is entry (10000·t + p, q) of `dense2 h W2`.  The ten blocks tile the array,
  so the array ends holding `dense2 h W2` of whatever h and W2 the region finds (arbitrary entry contents `V`).
-/
import proofs.«165838_j80934363726496_1_alg».proof.Proof.Gen.KernelIdeal.Frame
import proofs.«165838_j80934363726496_1_alg».proof.Proof.Net
import Idealize.ShloMosaic.Lib.Pipeline.Value
import Idealize.ShloMosaic.Lib.ValueIdx
import Idealize.ShloMosaic.PureOps.Ideal.Laws

set_option maxRecDepth 16384

noncomputable section

namespace Cert.KernelIdeal.Product2

open Idealize.ShloMosaic Idealize.ShloMosaic.TcCoe Idealize.SL.Sem
open Idealize.ShloMosaic.Pipeline (Dat Cfg Window)
open Cert.KernelIdeal Cert.KernelIdeal.Gen Cert.GCN

/-- The MXU product's dimension numbers: [10000, 64] × [64, 32], axis 1 of the left against axis 0 of the right. -/
abbrev dK := dot_S10000x64_S64x32_S10000x32_1_0_0_1_n_n

/-! ## The operand indices of the block product -/

theorem lhs_0 (j : S10000x32.Idx) (q : dK.contr.Idx) : (dK.lhsIdx j q 0).val = (j 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs_1 (j : S10000x32.Idx) (q : dK.contr.Idx) : (dK.lhsIdx j q 1).val = (q ⟨0, by decide⟩).val :=
  dot_S10000x64_S64x32_S10000x32_1_0_0_1_n_n.lhsIdx_val_of_single rfl j q
theorem rhs_0 (j : S10000x32.Idx) (q : dK.contr.Idx) : (dK.rhsIdx j q 0).val = (q ⟨0, by decide⟩).val :=
  dot_S10000x64_S64x32_S10000x32_1_0_0_1_n_n.rhsIdx_val_of_single rfl j q
theorem rhs_1 (j : S10000x32.Idx) (q : dK.contr.Idx) : (dK.rhsIdx j q 1).val = (j 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- In a block of h: local row of `j`, column `k`. -/
abbrev brow (j : S10000x32.Idx) (k : Fin 64) : S10000x64.Idx := fun a => match a with
  | ⟨0, _⟩ => ⟨(j 0).val, (j 0).isLt⟩
  | ⟨1, _⟩ => ⟨k.val, k.isLt⟩
/-- In W2: row `k`, the column of `j`. -/
abbrev bcol (j : S10000x32.Idx) (k : Fin 64) : S64x32.Idx := fun a => match a with
  | ⟨0, _⟩ => ⟨k.val, k.isLt⟩
  | ⟨1, _⟩ => ⟨(j 1).val, (j 1).isLt⟩

/-- The body's stored value at a local index: the sum over the 64 contracted positions of the products of the
    staged operands (the cast to the block's own shape and the rounding to bf16 are the identity at the ideal instance; the accumulator is zero). -/
theorem pay_apply (x0 : FVec Ideal S10000x64 .f32) (x1 : FVec Ideal S64x32 .f32) (j : S10000x32.Idx) :
    k1_pay1 (F := Ideal) x0 x1 j = ∑ k : Fin 64, x0 (brow j k) * x1 (bcol j k) := by
  unfold k1_pay1
  simp only [matmul, shapeCast_self]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx j ((ValueIdx.contrEquiv1 dot_S10000x64_S64x32_S10000x32_1_0_0_1_n_n 64 rfl rfl).symm k) = brow j k := funext fun a => Fin.ext (by
    match a with
    | ⟨0, _⟩ => exact lhs_0 _ _
    | ⟨1, _⟩ => exact (lhs_1 _ _).trans hk)
  have er : dot_S10000x64_S64x32_S10000x32_1_0_0_1_n_n.rhsIdx j ((ValueIdx.contrEquiv1 dot_S10000x64_S64x32_S10000x32_1_0_0_1_n_n 64 rfl rfl).symm k) = bcol j k := funext fun a => Fin.ext (by
    match a with
    | ⟨0, _⟩ => exact (rhs_0 _ _).trans hk
    | ⟨1, _⟩ => exact rhs_1 _ _)
  show x0 (dot_S10000x64_S64x32_S10000x32_1_0_0_1_n_n.lhsIdx j _) * x1 (dot_S10000x64_S64x32_S10000x32_1_0_0_1_n_n.rhsIdx j _) = _
  rw [el, er]

/-! ## The blocks' positions, decided over the grid -/

theorem hz : (![0, 0] : Fin 2 → Nat) = fun _ => 0 := funext fun a => by fin_cases a <;> rfl

/-- The h block and the result block of a point sit at the same block row; every other block coordinate is 0. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every block row 0 … 9 is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

variable (V : (c : Dev nD) → (b : Ref sig .tc) → Buf (Elt Ideal) ((c : Thread nD τ).loc b))

/-- The left operand's array as the region finds it, at its literal type. -/
abbrev larr (c : Dev nD) : FVec Ideal S100000x64 .f32 := V c main_v47
/-- The right operand's array as the region finds it, at its literal type. -/
abbrev rarr (c : Dev nD) : FVec Ideal S64x32 .f32 := V c main_arg4

/-- What point `t` writes back is block `t` of `dense2 h W2`, h and W2 as the region finds them. -/
theorem flushed_eq (c : Dev nD) (t : Fin cfg1.N) :
    (dat1 V c).flushed 2 t = ((cfg1.win 2).blk t).view.read (Elt Ideal) (dense2 (V c main_v47) (V c main_arg4)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x32) hz]
  obtain ⟨e0, e1, e2, e3, e4, e5⟩ := idx_facts t
  funext j
  show k1_pay1 (F := Ideal) (iblk1 V c 0 t) (iblk1 V c 1 t) j = dense2 (V c main_v47) (V c main_arg4) (((cfg1.win 2).blk t).view.emb j)
  refine (pay_apply (iblk1 V c 0 t) (iblk1 V c 1 t) j).trans ?_
  unfold dense2
  refine Finset.sum_congr rfl fun k _ => ?_
  show larr V c (((cfg1.win 0).blk t).view.emb (brow j k)) * rarr V c (((cfg1.win 1).blk t).view.emb (bcol j k))
    = larr V c (row64 (((cfg1.win 2).blk t).view.emb j) k) * rarr V c (col64 (((cfg1.win 2).blk t).view.emb j) k)
  have h0 : ((cfg1.win 0).blk t).view.emb (brow j k) = row64 (((cfg1.win 2).blk t).view.emb j) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  have h1 : ((cfg1.win 1).blk t).view.emb (bcol j k) = col64 (((cfg1.win 2).blk t).view.emb j) k := by
    funext a; apply Fin.ext
    match a with
    | ⟨0, _⟩ => show win1_1.index t (0 : Fin 2) * 64 + 1 * k.val = k.val; omega
    | ⟨1, _⟩ => show win1_1.index t (1 : Fin 2) * 32 + 1 * (j 1).val = win1_2.index t (1 : Fin 2) * 32 + 1 * (j 1).val; omega
  rw [h0, h1]

/-- An index of the result array is in point `t`'s block iff each coordinate is in the block's range. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v48).slice (win1_2.rect t)).set ↔ _
  rw [View.set_slice_whole, Rect.mem_set_unit]
  exact Iff.rfl

/-- Every index of the result array is in some point's block: row r lies in block row r / 10000. -/
theorem cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 32 ≤ (i 1).val ∧ (i 1).val < win1_2.index t (1 : Fin 2) * 32 + 32; omega

/-- The result array after the region: `dense2 h W2` of the entry contents. -/
theorem out_eq (c : Dev nD) : (dat1 V c).arrAt 2 cfg1.N = dense2 (V c main_v47) (V c main_arg4) :=
  (dat1 V c).arrAt_eq_of_cover 2 (dense2 (V c main_v47) (V c main_arg4)) (fun t _ => flushed_eq V c t) cover

end Cert.KernelIdeal.Product2

end
-- ==== Proof.KernelValue.lean ====
/-
  The kernel's program ends with its result buffer at `net` of the six arguments.

  The buffer contents at the boundaries of the program's segments are a fold through the program (the generated
  `W0` … `W9`): a host stretch applies its operations, a pallas_call replaces its result array by what its
  write-backs leave.  Read from the end: the result is the 32-feature aggregation (stretch 2) of the second
  product's array, which is `dense2` of the 64-feature aggregation (stretch 1) of the first product's array,
  which is `dense1` of x and W1; the edge lists and the edge normalisation were computed before the first product
  (stretch 0) from the edge array, and neither a later stretch nor a pallas_call writes them or an argument.
-/
import proofs.«165838_j80934363726496_1_alg».proof.Proof.Gen.KernelIdeal.Frame
import proofs.«165838_j80934363726496_1_alg».proof.Proof.HostStretches
import proofs.«165838_j80934363726496_1_alg».proof.Proof.Matmul0
import proofs.«165838_j80934363726496_1_alg».proof.Proof.Matmul1

set_option maxRecDepth 16384

noncomputable section

namespace Cert.KernelIdeal.Result

open Idealize.ShloMosaic Idealize.ShloMosaic.TcCoe Idealize.SL.Sem
open Cert.KernelIdeal Cert.KernelIdeal.Gen Cert.GCN Cert.KernelIdeal.HostSide

variable (m : (ℓ : Loc nD τ sig) → Buf (Elt Ideal) ℓ) (ρ : Dev nD → PrngReg) (c : Dev nD)

/-- The edge array as launched. -/
abbrev ei : IVec S2x1600000 32 := m ((c : Thread nD τ).loc main_arg1)

/-! ## At the first product's entry (after stretch 0) -/

theorem at3_src : W3 m ρ c (Proc.devRef .tc main_v3) = srcOf (ei m c) := pre_src (W0 m ρ c)
theorem at3_dst : W3 m ρ c (Proc.devRef .tc main_v6) = dstOf (ei m c) := pre_dst (W0 m ρ c)
theorem at3_norm : W3 m ρ c (Proc.devRef .tc main_v30) = normOf (F := Ideal) (srcOf (ei m c)) (dstOf (ei m c)) := pre_norm (W0 m ρ c)
theorem at3_arg0 : W3 m ρ c (Proc.devRef .tc main_arg0) = m ((c : Thread nD τ).loc main_arg0) := (pre_keep (W0 m ρ c)).1
theorem at3_arg2 : W3 m ρ c (Proc.devRef .tc main_arg2) = m ((c : Thread nD τ).loc main_arg2) := (pre_keep (W0 m ρ c)).2.1
theorem at3_arg3 : W3 m ρ c (Proc.devRef .tc main_arg3) = m ((c : Thread nD τ).loc main_arg3) := (pre_keep (W0 m ρ c)).2.2.1
theorem at3_arg4 : W3 m ρ c (Proc.devRef .tc main_arg4) = m ((c : Thread nD τ).loc main_arg4) := (pre_keep (W0 m ρ c)).2.2.2.1
theorem at3_arg5 : W3 m ρ c (Proc.devRef .tc main_arg5) = m ((c : Thread nD τ).loc main_arg5) := (pre_keep (W0 m ρ c)).2.2.2.2

/-! ## At the first product's exit: its result array is `dense1 x W1`, the rest as entered -/

theorem at4_prod : W4 m ρ c (Proc.devRef .tc main_v31)
    = dense1 (m ((c : Thread nD τ).loc main_arg0)) (m ((c : Thread nD τ).loc main_arg2)) := by
  refine (W4_arr m ρ c 2).trans ((Product1.out_eq (V3 m ρ) c).trans ?_)
  show dense1 (W3 m ρ c (Proc.devRef .tc main_arg0)) (W3 m ρ c (Proc.devRef .tc main_arg2)) = _
  rw [at3_arg0, at3_arg2]
theorem at4_src : W4 m ρ c (Proc.devRef .tc main_v3) = srcOf (ei m c) := (W4_of_ne m ρ c main_v3 (by decide)).trans (at3_src m ρ c)
theorem at4_dst : W4 m ρ c (Proc.devRef .tc main_v6) = dstOf (ei m c) := (W4_of_ne m ρ c main_v6 (by decide)).trans (at3_dst m ρ c)
theorem at4_norm : W4 m ρ c (Proc.devRef .tc main_v30) = normOf (F := Ideal) (srcOf (ei m c)) (dstOf (ei m c)) :=
  (W4_of_ne m ρ c main_v30 (by decide)).trans (at3_norm m ρ c)
theorem at4_arg3 : W4 m ρ c (Proc.devRef .tc main_arg3) = m ((c : Thread nD τ).loc main_arg3) := (W4_of_ne m ρ c main_arg3 (by decide)).trans (at3_arg3 m ρ c)
theorem at4_arg4 : W4 m ρ c (Proc.devRef .tc main_arg4) = m ((c : Thread nD τ).loc main_arg4) := (W4_of_ne m ρ c main_arg4 (by decide)).trans (at3_arg4 m ρ c)
theorem at4_arg5 : W4 m ρ c (Proc.devRef .tc main_arg5) = m ((c : Thread nD τ).loc main_arg5) := (W4_of_ne m ρ c main_arg5 (by decide)).trans (at3_arg5 m ρ c)

/-! ## At the second product's entry (after stretch 1) -/

/-- The first layer's output. -/
abbrev h1 : FVec Ideal S100000x64 .f32 :=
  aggr64 (dense1 (m ((c : Thread nD τ).loc main_arg0)) (m ((c : Thread nD τ).loc main_arg2)))
    (normOf (srcOf (ei m c)) (dstOf (ei m c))) (srcOf (ei m c)) (dstOf (ei m c)) (m ((c : Thread nD τ).loc main_arg3))

theorem at6_h1 : W6 m ρ c (Proc.devRef .tc main_v47) = h1 m c := by
  refine (mid_h1 (W4 m ρ c)).trans ?_
  rw [at4_prod, at4_norm, at4_src, at4_dst, at4_arg3]
theorem at6_src : W6 m ρ c (Proc.devRef .tc main_v3) = srcOf (ei m c) := (mid_keep (W4 m ρ c)).2.1.trans (at4_src m ρ c)
theorem at6_dst : W6 m ρ c (Proc.devRef .tc main_v6) = dstOf (ei m c) := (mid_keep (W4 m ρ c)).2.2.1.trans (at4_dst m ρ c)
theorem at6_norm : W6 m ρ c (Proc.devRef .tc main_v30) = normOf (F := Ideal) (srcOf (ei m c)) (dstOf (ei m c)) :=
  (mid_keep (W4 m ρ c)).1.trans (at4_norm m ρ c)
theorem at6_arg4 : W6 m ρ c (Proc.devRef .tc main_arg4) = m ((c : Thread nD τ).loc main_arg4) := (mid_keep (W4 m ρ c)).2.2.2.1.trans (at4_arg4 m ρ c)
theorem at6_arg5 : W6 m ρ c (Proc.devRef .tc main_arg5) = m ((c : Thread nD τ).loc main_arg5) := (mid_keep (W4 m ρ c)).2.2.2.2.trans (at4_arg5 m ρ c)

/-! ## At the second product's exit: its result array is `dense2 h1 W2`, the rest as entered -/

theorem at7_prod : W7 m ρ c (Proc.devRef .tc main_v48) = dense2 (h1 m c) (m ((c : Thread nD τ).loc main_arg4)) := by
  refine (W7_arr m ρ c 2).trans ((Product2.out_eq (V6 m ρ) c).trans ?_)
  show dense2 (W6 m ρ c (Proc.devRef .tc main_v47)) (W6 m ρ c (Proc.devRef .tc main_arg4)) = _
  rw [at6_h1, at6_arg4]
theorem at7_src : W7 m ρ c (Proc.devRef .tc main_v3) = srcOf (ei m c) := (W7_of_ne m ρ c main_v3 (by decide)).trans (at6_src m ρ c)
theorem at7_dst : W7 m ρ c (Proc.devRef .tc main_v6) = dstOf (ei m c) := (W7_of_ne m ρ c main_v6 (by decide)).trans (at6_dst m ρ c)
theorem at7_norm : W7 m ρ c (Proc.devRef .tc main_v30) = normOf (F := Ideal) (srcOf (ei m c)) (dstOf (ei m c)) :=
  (W7_of_ne m ρ c main_v30 (by decide)).trans (at6_norm m ρ c)
theorem at7_arg5 : W7 m ρ c (Proc.devRef .tc main_arg5) = m ((c : Thread nD τ).loc main_arg5) := (W7_of_ne m ρ c main_arg5 (by decide)).trans (at6_arg5 m ρ c)

/-! ## At the return (after stretch 2) -/

/-- The result buffer at the program's end is the network of the launch contents of the six arguments. -/
theorem out_eq : W9 m ρ c (Proc.devRef .tc main_v64)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (tail_out (W7 m ρ c)).trans ?_
  rw [at7_prod, at7_norm, at7_src, at7_dst, at7_arg5]
  rfl

end Cert.KernelIdeal.Result

end
-- ==== Proof.RefValue.lean ====
/-
  The reference's result is `net` of the six arguments.

  The reference's program is one straight line of host operations; its run (Proof/RefRun.lean)
  ends with the result buffer at the operations' composed term of the arguments.  That term is, operation
  for operation, the two-layer network over the host's two `dot_general`s — the edge lists and the normalisation
  recomputed identically for the second layer —, and over the extended reals a `dot_general` with one contracted
  axis is the plain sum `dense1` resp. `dense2`.
-/
import proofs.«165838_j80934363726496_1_alg».proof.Proof.RefRun
import proofs.«165838_j80934363726496_1_alg».proof.Proof.Net
import Idealize.ShloMosaic.Lib.ValueIdx
import Idealize.ShloMosaic.PureOps.Ideal.Laws

set_option maxRecDepth 16384

noncomputable section

namespace Cert.ReferenceIdeal.Result

open Idealize.ShloMosaic Idealize.ShloMosaic.TcCoe Idealize.SL.Sem
open Cert.ReferenceIdeal Cert.ReferenceIdeal.Facts₀

/-! ## The host's dense products over the extended reals -/

theorem lhs1_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs1_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs1_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs1_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- x · W1 on the host is the plain sum. -/
theorem dot1_eq (x : FVec Ideal S100000x128 .f32) (w : FVec Ideal S128x64 .f32) :
    Host.dotGeneral (F := Ideal) dot_S100000x128_S128x64_S100000x64_1_0_0_1_n_n none x w = Cert.GCN.dense1 x w := by
  funext i
  unfold Cert.GCN.dense1
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = Cert.GCN.row128 i k := funext fun a => Fin.ext (by
    match a with
    | ⟨0, _⟩ => exact lhs1_0 _ _
    | ⟨1, _⟩ => exact (lhs1_1 _ _).trans hk)
  have er : dot_S100000x128_S128x64_S100000x64_1_0_0_1_n_n.rhsIdx i ((ValueIdx.contrEquiv1 dot_S100000x128_S128x64_S100000x64_1_0_0_1_n_n 128 rfl rfl).symm k) = Cert.GCN.col128 i k := funext fun a => Fin.ext (by
    match a with
    | ⟨0, _⟩ => exact (rhs1_0 _ _).trans hk
    | ⟨1, _⟩ => exact rhs1_1 _ _)
  rw [el, er]

theorem lhs2_0 (i : S100000x32.Idx) (q : dot_S100000x64_S64x32_S100000x32_1_0_0_1_n_n.contr.Idx) :
    (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem lhs2_1 (i : S100000x32.Idx) (q : dot_S100000x64_S64x32_S100000x32_1_0_0_1_n_n.contr.Idx) :
    (dot_S100000x64_S64x32_S100000x32_1_0_0_1_n_n.lhsIdx i q 1).val = (q ⟨0, by decide⟩).val :=
  dot_S100000x64_S64x32_S100000x32_1_0_0_1_n_n.lhsIdx_val_of_single rfl i q
theorem rhs2_0 (i : S100000x32.Idx) (q : dot_S100000x64_S64x32_S100000x32_1_0_0_1_n_n.contr.Idx) :
    (dot_S100000x64_S64x32_S100000x32_1_0_0_1_n_n.rhsIdx i q 0).val = (q ⟨0, by decide⟩).val :=
  dot_S100000x64_S64x32_S100000x32_1_0_0_1_n_n.rhsIdx_val_of_single rfl i q
theorem rhs2_1 (i : S100000x32.Idx) (q : dot_S100000x64_S64x32_S100000x32_1_0_0_1_n_n.contr.Idx) :
    (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

/-- h · W2 on the host is the plain sum. -/
theorem dot2_eq (h : FVec Ideal S100000x64 .f32) (w : FVec Ideal S64x32 .f32) :
    Host.dotGeneral (F := Ideal) dot_S100000x64_S64x32_S100000x32_1_0_0_1_n_n none h w = Cert.GCN.dense2 h w := by
  funext i
  unfold Cert.GCN.dense2
  simp only [Host.dotGeneral]
  rw [Ideal.dotGeneral_apply, ← Equiv.sum_comp (ValueIdx.contrEquiv1 dot_S100000x64_S64x32_S100000x32_1_0_0_1_n_n 64 rfl rfl).symm]
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx i ((ValueIdx.contrEquiv1 dot_S100000x64_S64x32_S100000x32_1_0_0_1_n_n 64 rfl rfl).symm k) = Cert.GCN.row64 i k := funext fun a => Fin.ext (by
    match a with
    | ⟨0, _⟩ => exact lhs2_0 _ _
    | ⟨1, _⟩ => exact (lhs2_1 _ _).trans hk)
  have er : dot_S100000x64_S64x32_S100000x32_1_0_0_1_n_n.rhsIdx i ((ValueIdx.contrEquiv1 dot_S100000x64_S64x32_S100000x32_1_0_0_1_n_n 64 rfl rfl).symm k) = Cert.GCN.col64 i k := funext fun a => Fin.ext (by
    match a with
    | ⟨0, _⟩ => exact (rhs2_0 _ _).trans hk
    | ⟨1, _⟩ => exact rhs2_1 _ _)
  rw [el, er]

/-! ## The run's term is the network -/

section AnyFamily
variable {F : FTy → Type} [FloatOps F]

set_option maxHeartbeats 4000000 in
/-- For any float family the composed term is the network over the host's two products, operation for operation. -/
theorem res_eq_netOf (m : (ℓ : Loc nD τ sig) → Buf (Elt F) ℓ) (c : Dev nD) :
    RunP.res_main_v88 (F := F) m c
      = Cert.GCN.netOf (F := F) (fun l r => Host.dotGeneral dot_S100000x128_S128x64_S100000x64_1_0_0_1_n_n none l r)
          (fun l r => Host.dotGeneral dot_S100000x64_S64x32_S100000x32_1_0_0_1_n_n none l r)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold RunP.res_main_v88
  rfl

end AnyFamily

/-- Over the extended reals the reference's result is `net` of the arguments. -/
theorem res_eq (m : (ℓ : Loc nD τ sig) → Buf (Elt Ideal) ℓ) (c : Dev nD) :
    RunP.res_main_v88 (F := Ideal) m c
      = Cert.GCN.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [res_eq_netOf]
  unfold Cert.GCN.net
  have e1 : (fun (l : FVec Ideal S100000x128 .f32) (r : FVec Ideal S128x64 .f32) => Host.dotGeneral (F := Ideal) dot_S100000x128_S128x64_S100000x64_1_0_0_1_n_n none l r) = Cert.GCN.dense1 :=
    funext fun l => funext fun r => dot1_eq l r
  have e2 : (fun (l : FVec Ideal S100000x64 .f32) (r : FVec Ideal S64x32 .f32) => Host.dotGeneral (F := Ideal) dot_S100000x64_S64x32_S100000x32_1_0_0_1_n_n none l r) = Cert.GCN.dense2 :=
    funext fun l => funext fun r => dot2_eq l r
  rw [e1, e2]

end Cert.ReferenceIdeal.Result

end
-- ==== Proof.lean ====
/-
  A two-layer graph convolution (GCN) on 100 000 nodes and 1 600 000 edges plus self loops: the kernel's program
  against its jnp reference, over the extended reals.

  Both programs compute, per layer, h ↦ relu(A · (h · W) + b), A the symmetrically normalised adjacency applied as
  gather – scale – scatter-add over the edge list.  The gather, the scaling and the scatter-add are the SAME host
  operations in both programs (the kernel's program computes the edge normalisation once, the reference once per
  layer, from the same operations of the edge array), so they are named once as functions (Proof/Layers.lean) and
  never opened.  The programs differ only in the dense products h · W: the kernel's program runs a pallas_call
  that stages 10000 rows at a time, rounds both operands to bf16 (the identity here) and multiplies on the MXU
  into a zero accumulator; the reference applies one dot_general.  Over the extended reals both are the plain sum
  over the contracted axis (Proof/Matmul0.lean, Proof/Matmul1.lean for the blocks; Proof/RefValue.lean for the
  dot_general), so both programs end at `Cert.GCN.net` of the six arguments (Proof/KernelValue.lean,
  Proof/RefValue.lean).  No law of the extended reals beyond re-indexing a finite sum is used, and the
  precondition (finite inputs) is never opened.

  The frames: the word-level and the idealized kernel programs' are the generated frame certificates; the
  reference's is its run with the result dropped.  The ideal pass rewrote nothing, so `preserves` is `True`.
-/
import proofs.«165838_j80934363726496_1_alg».proof.Defs
import proofs.«165838_j80934363726496_1_alg».proof.Proof.Gen.Kernel
import proofs.«165838_j80934363726496_1_alg».proof.Proof.Gen.Kernel.Skeleton
import proofs.«165838_j80934363726496_1_alg».proof.Proof.Gen.Kernel.Launch
import proofs.«165838_j80934363726496_1_alg».proof.Proof.Gen.Kernel.Points
import proofs.«165838_j80934363726496_1_alg».proof.Proof.Gen.Kernel.Frame
import proofs.«165838_j80934363726496_1_alg».proof.Proof.Gen.KernelIdeal
import proofs.«165838_j80934363726496_1_alg».proof.Proof.Gen.KernelIdeal.Skeleton
import proofs.«165838_j80934363726496_1_alg».proof.Proof.Gen.KernelIdeal.Launch
import proofs.«165838_j80934363726496_1_alg».proof.Proof.Gen.KernelIdeal.Points
import proofs.«165838_j80934363726496_1_alg».proof.Proof.Gen.KernelIdeal.Frame
import proofs.«165838_j80934363726496_1_alg».proof.Proof.Gen.ReferenceIdeal
import proofs.«165838_j80934363726496_1_alg».proof.Proof.Gen.Pre_finite_inputs
import proofs.«165838_j80934363726496_1_alg».proof.Proof.KernelRun
import proofs.«165838_j80934363726496_1_alg».proof.Proof.KernelValue
import proofs.«165838_j80934363726496_1_alg».proof.Proof.RefRun
import proofs.«165838_j80934363726496_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end with their result at `net` of arguments that agree. -/
theorem algebraic : Cert.algebraic_KernelIdeal_ReferenceIdeal := by
  intro m ρ m' ρ' _ hagree
  refine ⟨fun c => Cert.GCN.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.out_eq m ρ c), (h c).2⟩)
      (Cert.KernelIdeal.GenP.run_out (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.Result.res_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
